-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn {F : FTy → Type} [FloatOps F] (main_arg0 : FVec F S32768x1024 .f32) (main_arg1 : FVec F S8x1024x4096 .f32) (main_arg2 : FVec F S8x4096x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  main_v13
-- ==== Kernel.lean ====
abbrev S32768x1024 : Shape := ⟨2, ![32768, 1024]⟩
abbrev S8x1024x4096 : Shape := ⟨3, ![8, 1024, 4096]⟩
abbrev S8x4096x1024 : Shape := ⟨3, ![8, 4096, 1024]⟩
abbrev S1x1024x1024 : Shape := ⟨3, ![1, 1024, 1024]⟩
abbrev S1x1024x512 : Shape := ⟨3, ![1, 1024, 512]⟩
abbrev S1x512x1024 : Shape := ⟨3, ![1, 512, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S8x1024x4096, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S32768x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x512x1024, .f32⟩
  | .local _ .vmem, ⟨5, _⟩ => ⟨S1x512x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_15 : BitVec 32 := 0#32
  let v24 : BitVec 1 := Scalar.cmpi .ne v23 c0_i32_15
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S32768x1024_S8x4096x1024 : S32768x1024.ShapeCasts S8x4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S1024x1024_S1x1024x1024 : S1024x1024.ShapeCasts S1x1024x1024
  shapeCasts_S8x4096x1024_S32768x1024 : S8x4096x1024.ShapeCasts S32768x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .f32 = 32 ∨ (Rect.block (s := S8x1024x4096) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x4096x1024.size a
  hwx0_2 : ∀ i : grid0.Coords, EltTy.bits .f32 = 32 ∨ (Rect.block (s := S8x4096x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x1024.size a
  hwx0_3 : ∀ i : grid0.Coords, EltTy.bits .f32 = 32 ∨ (Rect.block (s := S8x4096x1024) S1x1024x1024.size (cc0_transform_3 i) (hinb0_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x1024 : Shape := ⟨2, ![32768, 1024]⟩
abbrev S8x1024x4096 : Shape := ⟨3, ![8, 1024, 4096]⟩
abbrev S8x4096x1024 : Shape := ⟨3, ![8, 4096, 1024]⟩
abbrev S8x4096x4096 : Shape := ⟨3, ![8, 4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x1024x4096, .f32⟩
  | .hbm, ⟨2, _⟩ => ⟨S8x4096x1024, .f32⟩
  | .hbm, ⟨3, _⟩ => ⟨S8x4096x1024, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S8x4096x1024, .f32⟩
  | .hbm, ⟨9, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  shapeCasts_S32768x1024_S8x4096x1024 : S32768x1024.ShapeCasts S8x4096x1024
  bcast_S_S8x4096x4096 : S_.BroadcastsInDim S8x4096x4096 (![] : Fin 0 → Fin S8x4096x4096.rank)
  shapeCasts_S8x4096x1024_S32768x1024 : S8x4096x1024.ShapeCasts S32768x1024
  dot_S8x4096x1024_S8x1024x4096_S8x4096x4096_2_1_1_2_0_0_wf : DotDims.WF S8x4096x1024 S8x1024x4096 S8x4096x4096 [2] [1] [1] [2] [0] [0]
  dot_S8x4096x4096_S8x4096x1024_S8x4096x1024_2_1_1_2_0_0_wf : DotDims.WF S8x4096x4096 S8x4096x1024 S8x4096x1024 [2] [1] [1] [2] [0] [0]

variable [Facts₀]

def dot_S8x4096x1024_S8x1024x4096_S8x4096x4096_2_1_1_2_0_0 : DotDims S8x4096x1024 S8x1024x4096 S8x4096x4096 where
  lhsContracting := [2]
  rhsContracting := [1]
  lhsNonContracting := [1]
  rhsNonContracting := [2]
  lhsBatch := [0]
  rhsBatch := [0]
  wf := dot_S8x4096x1024_S8x1024x4096_S8x4096x4096_2_1_1_2_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.Pieces.lean ====
/-
  What one grid step leaves behind, case by case, as values of the step's loaded blocks (for any float instance).
  The body keeps a 1024 × 1024 accumulator between steps. At the first step of a run along the hidden axis it first
  stores the zero block, reads it back and stores `zero ⊕ tile` (case A); at a later step it reads the accumulator the
  step before left and stores `acc ⊕ tile` (cases B and C); at the last step (case C) it also reads the fresh
  accumulator back and stores it, with a leading unit axis, into the output block. Here `⊕ tile` is the body's one
  arithmetic payload (`k0_pay2`): the accumulator plus the product of the rectified first product with the tile of the
  output matrix.
-/
import proofs.«132760_j86294482911902_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A (first step of a run): the accumulator ends at the zero block plus the tile's product. -/
theorem scratch_A (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1024 .f32) (harg7 : arg7.IsWhole) (hc0 : cond0_0 i) (hc1 : ¬cond0_1 i)
    (x0 : Vec F S1x1024x1024 .f32) (x1 : Vec F S1x1024x512 .f32) (x2 : Vec F S1x512x1024 .f32) :
    sout0_A_0 c i arg3 harg3 arg4 harg4 arg5 harg5 arg6 harg6 arg7 harg7 hc0 hc1 x0 x1 x2 = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz2]
  simp only [View.readAt_eq_ld, harg3.read_unread, harg4.read_unread, harg5.read_unread, harg7.read_unread, View.ld_unit_zero (S := S1x1024x1024) hz3, View.ld_unit_zero (S := S1x1024x512) hz3, View.ld_unit_zero (S := S1x512x1024) hz3, View.ld_unit_zero (S := S1024x1024) hz2, View.readCov_unit_zero (S := S1024x1024) _ hz2]

/-- Case B (a middle step): the accumulator ends at what the step before left plus the tile's product. -/
theorem scratch_B (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : ¬cond0_1 i)
    (x0 : Vec F S1x1024x1024 .f32) (x1 : Vec F S1x1024x512 .f32) (x2 : Vec F S1x512x1024 .f32) (xs0 : Vec F S1024x1024 .f32) :
    sout0_B_0 c i arg3 harg3 arg4 harg4 arg5 harg5 arg6 harg6 arg7 harg7 hc0 hc1 x0 x1 x2 xs0 = k0_pay2 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg3.read_unread, harg4.read_unread, harg5.read_unread, harg7.read_unread, View.ld_unit_zero (S := S1x1024x1024) hz3, View.ld_unit_zero (S := S1x1024x512) hz3, View.ld_unit_zero (S := S1x512x1024) hz3, View.ld_unit_zero (S := S1024x1024) hz2]

/-- Case C (last step of a run): the accumulator as in case B, -/
theorem scratch_C (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .f32) (x1 : Vec F S1x1024x512 .f32) (x2 : Vec F S1x512x1024 .f32) (xs0 : Vec F S1024x1024 .f32) :
    sout0_C_0 c i arg3 harg3 arg4 harg4 arg5 harg5 arg6 harg6 arg7 harg7 hc0 hc1 x0 x1 x2 xs0 = k0_pay2 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg5.read_unread, harg7.read_unread, View.ld_unit_zero (S := S1x1024x1024) hz3, View.ld_unit_zero (S := S1x1024x512) hz3, View.ld_unit_zero (S := S1x512x1024) hz3, View.ld_unit_zero (S := S1024x1024) hz2]

/-- and the output block is that fresh accumulator under a leading unit axis. -/
theorem out_C (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .f32) (x1 : Vec F S1x1024x512 .f32) (x2 : Vec F S1x512x1024 .f32) (xs0 : Vec F S1024x1024 .f32) :
    out0_C_3 c i arg3 harg3 arg4 harg4 arg5 harg5 arg6 harg6 arg7 harg7 hc0 hc1 x0 x1 x2 xs0 = k0_pay3 (k0_pay2 x0 x1 x2 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz3]
  simp only [View.readAt_eq_ld, harg3.read_unread, harg4.read_unread, harg5.read_unread, harg7.read_unread, View.ld_unit_zero (S := S1x1024x1024) hz3, View.ld_unit_zero (S := S1x1024x512) hz3, View.ld_unit_zero (S := S1x512x1024) hz3, View.ld_unit_zero (S := S1024x1024) hz2, View.readCov_unit_zero (S := S1024x1024) _ hz2]

end Cert.KernelIdeal.Pieces

end
-- ==== Proof.Spec.lean ====
/-
  The mathematics of the claim, free of either program.

  Tokens are the rows of `x` (32768 rows of 1024 features), grouped in 8 consecutive runs of 4096 rows, one run per
  expert: token `τ` of expert `e` is row `4096 e + τ`. Expert `e` owns an input matrix `wi e` (1024 × 4096) and an
  output matrix `wo e` (4096 × 1024). The layer's value at expert `e`, token `τ`, output feature `δ` is

      ffn e τ δ = ∑ f < 4096, max (∑ d < 1024, x (4096 e + τ) d · wi e d f) 0 · wo e f δ.

  The hidden axis `f` may be cut into 8 tiles of 512: `part e τ δ j` is the contribution of tile `j`, and a finite sum
  over the extended reals may be regrouped freely (addition there is commutative and associative, with no side
  condition), so `ffn = ∑ j < 8, part j` (`ffn_eq_parts`). No finiteness of the inputs is used anywhere.
  Both programs lay the 8 × 4096 × 1024 values out as 32768 × 1024 by one and the same final reshape, so the claim is
  the equality of the 8 × 4096 × 1024 arrays (`resultByExpert`).
-/
import Idealize.ShloMosaic.PureOps.Ideal
import Idealize.ShloMosaic.PureOps.Ideal.Laws
import Idealize.ShloMosaic.Lib.ValueIdx

noncomputable section

open scoped BigOperators

namespace Cert.Ffn

open Idealize.ShloMosaic Idealize.ShloMosaic.ValueIdx

/-- The token matrix, the experts' input matrices and their output matrices, as arrays of extended reals. -/
abbrev XArr : Type := (⟨2, ![32768, 1024]⟩ : Shape).Idx → EReal
abbrev WiArr : Type := (⟨3, ![8, 1024, 4096]⟩ : Shape).Idx → EReal
abbrev WoArr : Type := (⟨3, ![8, 4096, 1024]⟩ : Shape).Idx → EReal

/-- The zero the rectifier compares with (the word of `+0.0`, never evaluated: both programs print the same word). -/
abbrev z0 : EReal := Ideal.ofBits .f32 0x00000000#32

/-- Token `tok` of expert `e` is row `4096 e + tok` of `x`. -/
def rowOf (e : Fin 8) (tok : Fin 4096) : Fin 32768 := ⟨e.val * 4096 + tok.val, by have := e.isLt; have := tok.isLt; omega⟩

/-- Hidden unit `f` of a token, rectified. -/
def hid (x : XArr) (wi : WiArr) (e : Fin 8) (tok : Fin 4096) (f : Fin 4096) : EReal :=
  max (∑ d : Fin 1024, x (ix2 (rowOf e tok) d) * wi (ix3 e d f)) z0

/-- What hidden unit `f` contributes to output feature `δ` of a token. -/
def term (x : XArr) (wi : WiArr) (wo : WoArr) (e : Fin 8) (tok : Fin 4096) (δ : Fin 1024) (f : Fin 4096) : EReal :=
  hid x wi e tok f * wo (ix3 e f δ)

/-- The layer: the sum of all 4096 hidden units' contributions. -/
def ffn (x : XArr) (wi : WiArr) (wo : WoArr) (e : Fin 8) (tok : Fin 4096) (δ : Fin 1024) : EReal :=
  ∑ f : Fin 4096, term x wi wo e tok δ f

/-- Hidden unit number `f'` of tile `j` (tiles of 512; for `j < 8` the reduction modulo 4096 does nothing). -/
def tileIdx (j : ℕ) (f' : Fin 512) : Fin 4096 := ⟨(512 * j + f'.val) % 4096, Nat.mod_lt _ (by decide)⟩

/-- The contribution of tile `j` of the hidden axis. -/
def part (x : XArr) (wi : WiArr) (wo : WoArr) (e : Fin 8) (tok : Fin 4096) (δ : Fin 1024) (j : ℕ) : EReal :=
  ∑ f' : Fin 512, term x wi wo e tok δ (tileIdx j f')

/-- A sum over the 4096 hidden units is the sum over the 8 tiles of the sums inside each tile. -/
theorem sum_tiles {M : Type*} [AddCommMonoid M] (g : Fin 4096 → M) :
    ∑ f, g f = ∑ j ∈ Finset.range 8, ∑ f' : Fin 512, g (tileIdx j f') := by
  rw [Finset.sum_range, ← Equiv.sum_comp (finProdFinEquiv (m := 8) (n := 512)) g, Fintype.sum_prod_type]
  refine Finset.sum_congr rfl fun a _ => Finset.sum_congr rfl fun b _ => congrArg g (Fin.ext ?_)
  show b.val + 512 * a.val = (512 * a.val + b.val) % 4096
  have := a.isLt; have := b.isLt; omega

/-- The layer is the sum of its eight tiles' contributions. -/
theorem ffn_eq_parts (x : XArr) (wi : WiArr) (wo : WoArr) (e : Fin 8) (tok : Fin 4096) (δ : Fin 1024) :
    ffn x wi wo e tok δ = ∑ j ∈ Finset.range 8, part x wi wo e tok δ j :=
  sum_tiles _

/-- The result expert by expert, as one 8 × 4096 × 1024 array. -/
def resultByExpert (x : XArr) (wi : WiArr) (wo : WoArr) : (⟨3, ![8, 4096, 1024]⟩ : Shape).Idx → EReal :=
  fun i => ffn x wi wo (i 0) (i 1) (i 2)

/-- One grid step on blocks: what the accumulator holds after adding one tile's product. `xb` is a 1024-row block of
    tokens, `wib` the 1024 × 512 tile of the input matrix, `wob` the 512 × 1024 tile of the output matrix. -/
def tileStep (xb : (⟨3, ![1, 1024, 1024]⟩ : Shape).Idx → EReal) (wib : (⟨3, ![1, 1024, 512]⟩ : Shape).Idx → EReal)
    (wob : (⟨3, ![1, 512, 1024]⟩ : Shape).Idx → EReal) (acc : (⟨2, ![1024, 1024]⟩ : Shape).Idx → EReal)
    (r δ : Fin 1024) : EReal :=
  acc (ix2 r δ) + ∑ f' : Fin 512, max (∑ d : Fin 1024, xb (ix3 0 r d) * wib (ix3 0 d f')) z0 * wob (ix3 0 f' δ)

end Cert.Ffn

end
-- ==== Proof.Payload.lean ====
/-
  The body's arithmetic at an index, over the extended reals. Changes of float format are the identity there and a
  matrix product into the zero block is the plain sum of products, so one grid step adds to entry (r, δ) of the
  accumulator

      ∑ f' < 512, max (∑ d < 1024, xb r d · wib d f') 0 · wob f' δ

  of the step's three blocks (`Cert.Ffn.tileStep`). The zero block reads the zero word everywhere, and the output
  block is the accumulator under a leading unit axis.
-/
import proofs.«132760_j86294482911902_1_alg».proof.Proof.Gen.KernelIdeal.Skeleton
import proofs.«132760_j86294482911902_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Ffn

/-! ### The first product: a 1024 × 1024 block times a 1024 × 512 tile -/

theorem lhs1_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs1_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs1_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs1_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- Entry (r, f') of the first product is the sum over the 1024 features. -/
theorem mm1_apply (a : FVec Ideal S1024x1024 .bf16) (b : FVec Ideal S1024x512 .bf16) (r : Fin 1024) (f' : Fin 512) :
    matmul dot_S1024x1024_S1024x512_S1024x512_1_0_0_1_n_n none a b (constant (F := Ideal) S1024x512 .f32 0x00000000#32) (ix2 r f')
      = ∑ d : Fin 1024, a (ix2 r d) * b (ix2 d f') := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 r f') ((contrEquiv1 dot_S1024x1024_S1024x512_S1024x512_1_0_0_1_n_n 1024 rfl rfl).symm k) = ix2 r k := funext fun a => Fin.ext (by
    match a with
    | ⟨0, _⟩ => exact lhs1_0 _ _
    | ⟨1, _⟩ => exact (lhs1_1 _ _).trans hk)
  have er : dot_S1024x1024_S1024x512_S1024x512_1_0_0_1_n_n.rhsIdx (ix2 r f') ((contrEquiv1 dot_S1024x1024_S1024x512_S1024x512_1_0_0_1_n_n 1024 rfl rfl).symm k) = ix2 k f' := funext fun a => Fin.ext (by
    match a with
    | ⟨0, _⟩ => exact (rhs1_0 _ _).trans hk
    | ⟨1, _⟩ => exact rhs1_1 _ _)
  rw [el, er]

/-! ### The second product: the 1024 × 512 rectified block times a 512 × 1024 tile -/

theorem lhs2_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs2_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs2_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs2_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- Entry (r, δ) of the second product is the sum over the tile's 512 hidden units. -/
theorem mm2_apply (a : FVec Ideal S1024x512 .bf16) (b : FVec Ideal S512x1024 .bf16) (r δ : Fin 1024) :
    matmul dot_S1024x512_S512x1024_S1024x1024_1_0_0_1_n_n none a b (constant (F := Ideal) S1024x1024 .f32 0x00000000#32) (ix2 r δ)
      = ∑ f' : Fin 512, a (ix2 r f') * b (ix2 f' δ) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r δ) ((contrEquiv1 dot_S1024x512_S512x1024_S1024x1024_1_0_0_1_n_n 512 rfl rfl).symm k) = ix2 r k := funext fun a => Fin.ext (by
    match a with
    | ⟨0, _⟩ => exact lhs2_0 _ _
    | ⟨1, _⟩ => exact (lhs2_1 _ _).trans hk)
  have er : dot_S1024x512_S512x1024_S1024x1024_1_0_0_1_n_n.rhsIdx (ix2 r δ) ((contrEquiv1 dot_S1024x512_S512x1024_S1024x1024_1_0_0_1_n_n 512 rfl rfl).symm k) = ix2 k δ := funext fun a => Fin.ext (by
    match a with
    | ⟨0, _⟩ => exact (rhs2_0 _ _).trans hk
    | ⟨1, _⟩ => exact rhs2_1 _ _)
  rw [el, er]

/-! ### The three payloads -/

/-- The zero block holds the zero word everywhere. -/
theorem pay1_apply (j : S1024x1024.Idx) : k0_pay1 (F := Ideal) j = z0 := by
  unfold k0_pay1
  rw [shapeCast_self]
  rfl

/-- The output block is the accumulator under a leading unit axis. -/
theorem pay3_apply (v : Vec Ideal S1024x1024 .f32) (r δ : Fin 1024) : k0_pay3 (F := Ideal) v (ix3 0 r δ) = v (ix2 r δ) := by
  unfold k0_pay3
  exact shapeCast_ab_1ab_apply v shapeCasts_S1024x1024_S1x1024x1024 0 r δ

/-- One grid step, entry by entry. -/
theorem pay2_apply (x0 : Vec Ideal S1x1024x1024 .f32) (x1 : Vec Ideal S1x1024x512 .f32) (x2 : Vec Ideal S1x512x1024 .f32)
    (acc : Vec Ideal S1024x1024 .f32) (r δ : Fin 1024) :
    k0_pay2 (F := Ideal) x0 x1 x2 acc (ix2 r δ) = tileStep x0 x1 x2 acc r δ := by
  unfold k0_pay2
  rw [shapeCast_self]
  show acc (ix2 r δ) + matmul dot_S1024x512_S512x1024_S1024x1024_1_0_0_1_n_n none _ _ (constant (F := Ideal) S1024x1024 .f32 0x00000000#32) (ix2 r δ) = _
  rw [mm2_apply]
  unfold tileStep
  refine congrArg (acc (ix2 r δ) + ·) (Finset.sum_congr rfl fun f' _ => ?_)
  show max (matmul dot_S1024x1024_S1024x512_S1024x512_1_0_0_1_n_n none _ _ (constant (F := Ideal) S1024x512 .f32 0x00000000#32) (ix2 r f')) z0
      * shapeCast S512x1024 x2 shapeCasts_S1x512x1024_S512x1024 (ix2 f' δ) = _
  rw [mm1_apply, shapeCast_1ab_ab_apply]
  refine congrArg (fun s => max s z0 * x2 (ix3 0 f' δ)) (Finset.sum_congr rfl fun d _ => ?_)
  show shapeCast S1024x1024 x0 shapeCasts_S1x1024x1024_S1024x1024 (ix2 r d)
      * shapeCast S1024x512 x1 shapeCasts_S1x1024x512_S1024x512 (ix2 d f') = _
  rw [shapeCast_1ab_ab_apply, shapeCast_1ab_ab_apply]

end Cert.KernelIdeal.Payload

end
-- ==== Proof.Blocks.lean ====
/-
  Where each block of a grid step sits in its array. The 256 grid positions run expert-major, then token block, then
  tile of the hidden axis: position `n = 32 e + 8 b + k` works for expert `e`, on token rows `1024 b … 1024 b + 1023` of
  that expert, with hidden units `512 k … 512 k + 511`. The index maps are decided once over the grid; a block's entry
  sits at index × block size + the coordinate inside the block. The token array itself reaches the kernel reshaped
  8 × 4096 × 1024, row-major: entry (e, τ, d) is row `4096 e + τ` of `x`.
-/
import proofs.«132760_j86294482911902_1_alg».proof.Proof.Gen.KernelIdeal.Frame
import proofs.«132760_j86294482911902_1_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The expert a grid position works for, the first token row of its token block, and its tile of the hidden axis
    (positions run expert-major, then token block, then tile: `n = 32 e + 8 b + k`). -/
def expertAt (n : ℕ) : Fin 8 := ⟨n / 32 % 8, Nat.mod_lt _ (by decide)⟩
def tokAt (n : ℕ) (r : Fin 1024) : Fin 4096 := ⟨n / 8 % 4 * 1024 + r.val, by have := r.isLt; omega⟩
def hidAt (n : ℕ) (f' : Fin 512) : Fin 4096 := ⟨n % 8 * 512 + f'.val, by have := f'.isLt; omega⟩

abbrev xblk (c : Dev nD) (t : Fin cfg0.N) : Vec F S1x1024x1024 .f32 := iblk m c 0 t
abbrev wiblk (c : Dev nD) (t : Fin cfg0.N) : Vec F S1x1024x512 .f32 := iblk m c 1 t
abbrev woblk (c : Dev nD) (t : Fin cfg0.N) : Vec F S1x512x1024 .f32 := iblk m c 2 t
abbrev x3arr (c : Dev nD) : Vec F S8x4096x1024 .f32 := V m c main_v0
abbrev wiarr (c : Dev nD) : Vec F S8x1024x4096 .f32 := V m c main_arg1
abbrev woarr (c : Dev nD) : Vec F S8x4096x1024 .f32 := V m c main_arg2

theorem idx0 : ∀ t : Fin cfg0.N, win0_0.index t 0 = t.val / 32 ∧ win0_0.index t 1 = t.val / 8 % 4 ∧ win0_0.index t 2 = 0 :=
  (by decide +kernel : ∀ t : Fin grid0.N, win0_0.index t 0 = t.val / 32 ∧ win0_0.index t 1 = t.val / 8 % 4 ∧ win0_0.index t 2 = 0)
theorem idx1 : ∀ t : Fin cfg0.N, win0_1.index t 0 = t.val / 32 ∧ win0_1.index t 1 = 0 ∧ win0_1.index t 2 = t.val % 8 :=
  (by decide +kernel : ∀ t : Fin grid0.N, win0_1.index t 0 = t.val / 32 ∧ win0_1.index t 1 = 0 ∧ win0_1.index t 2 = t.val % 8)
theorem idx2 : ∀ t : Fin cfg0.N, win0_2.index t 0 = t.val / 32 ∧ win0_2.index t 1 = t.val % 8 ∧ win0_2.index t 2 = 0 :=
  (by decide +kernel : ∀ t : Fin grid0.N, win0_2.index t 0 = t.val / 32 ∧ win0_2.index t 1 = t.val % 8 ∧ win0_2.index t 2 = 0)
theorem idx3 : ∀ t : Fin cfg0.N, win0_3.index t 0 = t.val / 32 ∧ win0_3.index t 1 = t.val / 8 % 4 ∧ win0_3.index t 2 = 0 :=
  (by decide +kernel : ∀ t : Fin grid0.N, win0_3.index t 0 = t.val / 32 ∧ win0_3.index t 1 = t.val / 8 % 4 ∧ win0_3.index t 2 = 0)

/-- The token block at a grid position: its entry (r, d) is token row `1024 b + r` of expert `e`. -/
theorem xblk_apply (c : Dev nD) (t : Fin cfg0.N) (r d : Fin 1024) :
    xblk m c t (ix3 0 r d) = x3arr m c (ix3 (expertAt t.val) (tokAt t.val r) d) := by
  have hN : t.val < 256 := lt_of_lt_of_eq t.isLt (show cfg0.N = 256 from N_0)
  obtain ⟨h0, h1, h2⟩ := idx0 t
  show ((cfg0.win 0).blk t).view.read (Elt F) (V m c (Pipeline.arrRef spec0 0)) (ix3 0 r d) = _
  rw [View.read_apply]
  show V m c main_v0 (((cfg0.win 0).blk t).view.emb (ix3 0 r d)) = V m c main_v0 _
  refine congrArg (V m c main_v0) (funext fun a => Fin.ext ?_)
  match a with
  | ⟨0, _⟩ => show win0_0.index t 0 * 1 + 1 * 0 = t.val / 32 % 8; rw [h0]; omega
  | ⟨1, _⟩ => show win0_0.index t 1 * 1024 + 1 * r.val = t.val / 8 % 4 * 1024 + r.val; rw [h1]; omega
  | ⟨2, _⟩ => show win0_0.index t 2 * 1024 + 1 * d.val = d.val; rw [h2]; omega

/-- The input-matrix tile at a grid position: its entry (d, f') is hidden unit `512 k + f'` of expert `e`. -/
theorem wiblk_apply (c : Dev nD) (t : Fin cfg0.N) (d : Fin 1024) (f' : Fin 512) :
    wiblk m c t (ix3 0 d f') = wiarr m c (ix3 (expertAt t.val) d (hidAt t.val f')) := by
  have hN : t.val < 256 := lt_of_lt_of_eq t.isLt (show cfg0.N = 256 from N_0)
  obtain ⟨h0, h1, h2⟩ := idx1 t
  show ((cfg0.win 1).blk t).view.read (Elt F) (V m c (Pipeline.arrRef spec0 1)) (ix3 0 d f') = _
  rw [View.read_apply]
  show V m c main_arg1 (((cfg0.win 1).blk t).view.emb (ix3 0 d f')) = V m c main_arg1 _
  refine congrArg (V m c main_arg1) (funext fun a => Fin.ext ?_)
  match a with
  | ⟨0, _⟩ => show win0_1.index t 0 * 1 + 1 * 0 = t.val / 32 % 8; rw [h0]; omega
  | ⟨1, _⟩ => show win0_1.index t 1 * 1024 + 1 * d.val = d.val; rw [h1]; omega
  | ⟨2, _⟩ => show win0_1.index t 2 * 512 + 1 * f'.val = t.val % 8 * 512 + f'.val; rw [h2]; omega

/-- The output-matrix tile at a grid position: its entry (f', δ) is hidden unit `512 k + f'` of expert `e`. -/
theorem woblk_apply (c : Dev nD) (t : Fin cfg0.N) (f' : Fin 512) (δ : Fin 1024) :
    woblk m c t (ix3 0 f' δ) = woarr m c (ix3 (expertAt t.val) (hidAt t.val f') δ) := by
  have hN : t.val < 256 := lt_of_lt_of_eq t.isLt (show cfg0.N = 256 from N_0)
  obtain ⟨h0, h1, h2⟩ := idx2 t
  show ((cfg0.win 2).blk t).view.read (Elt F) (V m c (Pipeline.arrRef spec0 2)) (ix3 0 f' δ) = _
  rw [View.read_apply]
  show V m c main_arg2 (((cfg0.win 2).blk t).view.emb (ix3 0 f' δ)) = V m c main_arg2 _
  refine congrArg (V m c main_arg2) (funext fun a => Fin.ext ?_)
  match a with
  | ⟨0, _⟩ => show win0_2.index t 0 * 1 + 1 * 0 = t.val / 32 % 8; rw [h0]; omega
  | ⟨1, _⟩ => show win0_2.index t 1 * 512 + 1 * f'.val = t.val % 8 * 512 + f'.val; rw [h1]; omega
  | ⟨2, _⟩ => show win0_2.index t 2 * 1024 + 1 * δ.val = δ.val; rw [h2]; omega

/-- The two weight arrays reach the kernel as launched. -/
theorem wiarr_eq (c : Dev nD) : wiarr m c = m ((c : Thread nD τ).loc main_arg1) := V_main_arg1 m c
theorem woarr_eq (c : Dev nD) : woarr m c = m ((c : Thread nD τ).loc main_arg2) := V_main_arg2 m c

/-- The token array reaches the kernel reshaped expert by expert: entry (e, τ, d) is row `4096 e + τ` of `x`. -/
theorem x3arr_eq (c : Dev nD) :
    x3arr m c = shapeCast S8x4096x1024 (m ((c : Thread nD τ).loc main_arg0)) shapeCasts_S32768x1024_S8x4096x1024 := by
  show StableHlo.after hostOps0 (fun b => m (c, b)) (Proc.devRef .tc main_v0) = _
  after_results
  rfl

theorem x3arr_apply (c : Dev nD) (e : Fin 8) (tok : Fin 4096) (d : Fin 1024) :
    x3arr m c (ix3 e tok d) = m ((c : Thread nD τ).loc main_arg0) (ix2 (Cert.Ffn.rowOf e tok) d) := by
  rw [x3arr_eq]
  exact shapeCast_apply _ shapeCasts_S32768x1024_S8x4096x1024 (ix3 e tok d) (ix2 (Cert.Ffn.rowOf e tok) d)
    (by rw [Shape.rowMajor_val_two, Shape.rowMajor_val_three]; rfl)

end Cert.KernelIdeal.Blocks

end
-- ==== Proof.Accum.lean ====
/-
  The accumulator along a run of eight grid steps. Position `n = 32 e + 8 b + k` is step `k` of the run for expert `e`
  and token block `b`. After it the accumulator holds, at entry (r, δ), the contributions of tiles `0 … k` of the
  hidden axis to token `1024 b + r` of expert `e`:

      acc n (r, δ) = ∑ j ≤ k, part e (1024 b + r) δ j.

  At `k = 0` the body starts from the zero block (`0 + part 0`); at `k > 0` it adds tile `k` to what step `k - 1` of the
  same run left (the positions `n - 1` and `n` then share `e` and `b`). At `k = 7` all eight tiles are in, which is the
  layer's value (`ffn_eq_parts`), and the body copies the accumulator into the output block.
-/
import proofs.«132760_j86294482911902_1_alg».proof.Proof.Pieces
import proofs.«132760_j86294482911902_1_alg».proof.Proof.Payload
import proofs.«132760_j86294482911902_1_alg».proof.Proof.Blocks

noncomputable section

open scoped BigOperators
open Idealize.ShloMosaic Idealize.ShloMosaic.TcCoe Idealize.SL.Sem
open Idealize.ShloMosaic.Pipeline (Dat)

namespace Cert.KernelIdeal.Accum

open Cert.KernelIdeal Cert.KernelIdeal.Gen Idealize.ShloMosaic.ValueIdx Cert.Ffn Cert.KernelIdeal.Blocks

variable (m : (ℓ : Loc nD τ sig) → Buf (Elt Ideal) ℓ)

/-- The three arguments as launched, on core `c`. -/
abbrev X (c : Dev nD) : XArr := m ((c : Thread nD τ).loc main_arg0)
abbrev WI (c : Dev nD) : WiArr := m ((c : Thread nD τ).loc main_arg1)
abbrev WO (c : Dev nD) : WoArr := m ((c : Thread nD τ).loc main_arg2)

/-- One grid step on the position's blocks adds that position's tile of the hidden axis. -/
theorem tile_eq (c : Dev nD) (t : Fin cfg0.N) (acc : Vec Ideal S1024x1024 .f32) (r δ : Fin 1024) :
    tileStep (xblk m c t) (wiblk m c t) (woblk m c t) acc r δ
      = acc (ix2 r δ) + part (X m c) (WI m c) (WO m c) (expertAt t.val) (tokAt t.val r) δ (t.val % 8) := by
  unfold tileStep part term hid
  refine congrArg (acc (ix2 r δ) + ·) (Finset.sum_congr rfl fun f' _ => ?_)
  have hf : tileIdx (t.val % 8) f' = hidAt t.val f' := Fin.ext (by
    show (512 * (t.val % 8) + f'.val) % 4096 = t.val % 8 * 512 + f'.val
    have := f'.isLt; omega)
  rw [hf, woblk_apply, woarr_eq]
  refine congrArg (fun s => max s z0 * _) (Finset.sum_congr rfl fun d _ => ?_)
  rw [xblk_apply, x3arr_apply, wiblk_apply, wiarr_eq]

/-- One position's step of the invariant, given the invariant at the position before (used only inside a run). -/
theorem acc_step (c : Dev nD) (t : Fin cfg0.N) (r δ : Fin 1024)
    (ih : ¬t.val % 8 = 0 → ∀ h', (outsAt0 m c (t.val - 1) h').2 (ix2 r δ)
      = ∑ j ∈ Finset.range ((t.val - 1) % 8 + 1), part (X m c) (WI m c) (WO m c) (expertAt (t.val - 1)) (tokAt (t.val - 1) r) δ j) :
    (outsAt0 m c t.val t.isLt).2 (ix2 r δ)
      = ∑ j ∈ Finset.range (t.val % 8 + 1), part (X m c) (WI m c) (WO m c) (expertAt t.val) (tokAt t.val r) δ j := by
  have hN : t.val < 256 := lt_of_lt_of_eq t.isLt (show cfg0.N = 256 from N_0)
  by_cases h0 : t.val % 8 = 0
  · have h1 : ¬t.val % 8 = 7 := by omega
    rw [outsAt0_A m c t h0 h1]
    dsimp only
    refine (congrFun (Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 r δ)).trans ?_
    refine (Payload.pay2_apply _ _ _ _ r δ).trans ?_
    refine (tile_eq m c t _ r δ).trans ?_
    rw [Payload.pay1_apply, h0]
    show Ideal.ofBits .f32 0x00000000#32 + _ = ∑ j ∈ Finset.range 1, _
    rw [Ideal.ofBits_zero_f32, zero_add, Finset.sum_range_one]
  · have ihv := ih h0 (Nat.lt_of_le_of_lt (Nat.sub_le _ _) t.isLt)
    have e1 : expertAt (t.val - 1) = expertAt t.val := Fin.ext (by
      show (t.val - 1) / 32 % 8 = t.val / 32 % 8
      omega)
    have e2 : tokAt (t.val - 1) r = tokAt t.val r := Fin.ext (by
      show (t.val - 1) / 8 % 4 * 1024 + r.val = t.val / 8 % 4 * 1024 + r.val
      omega)
    have e3 : (t.val - 1) % 8 + 1 = t.val % 8 := by omega
    rw [e1, e2, e3] at ihv
    by_cases h1 : t.val % 8 = 7
    · rw [outsAt0_C m c t h0 h1]
      dsimp only
      refine (congrFun (Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 r δ)).trans ?_
      refine (Payload.pay2_apply _ _ _ _ r δ).trans ?_
      refine (tile_eq m c t _ r δ).trans ?_
      rw [ihv, Finset.sum_range_succ]
    · rw [outsAt0_B m c t h0 h1]
      dsimp only
      refine (congrFun (Pieces.scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 r δ)).trans ?_
      refine (Payload.pay2_apply _ _ _ _ r δ).trans ?_
      refine (tile_eq m c t _ r δ).trans ?_
      rw [ihv, Finset.sum_range_succ]

/-- THE INVARIANT: after position `n` the accumulator holds the first `n % 8 + 1` tiles' contributions. -/
theorem acc_eq (c : Dev nD) : ∀ (n : ℕ) (h : n < cfg0.N) (r δ : Fin 1024),
    (outsAt0 m c n h).2 (ix2 r δ)
      = ∑ j ∈ Finset.range (n % 8 + 1), part (X m c) (WI m c) (WO m c) (expertAt n) (tokAt n r) δ j
  | 0, h, r, δ => acc_step m c ⟨0, h⟩ r δ (fun hne => absurd (Nat.zero_mod 8) hne)
  | n + 1, h, r, δ => acc_step m c ⟨n + 1, h⟩ r δ (fun _ h' => acc_eq c n h' r δ)

/-- At the last step of a run the output block holds the layer's value for the run's 1024 tokens. -/
theorem out_eq (c : Dev nD) (t : Fin cfg0.N) (h1 : t.val % 8 = 7) (r δ : Fin 1024) :
    (outsAt0 m c t.val t.isLt).1 (ix3 0 r δ)
      = ffn (X m c) (WI m c) (WO m c) (expertAt t.val) (tokAt t.val r) δ := by
  have h0 : ¬t.val % 8 = 0 := by omega
  have hacc := acc_eq m c t.val t.isLt r δ
  rw [outsAt0_C m c t h0 h1] at hacc ⊢
  dsimp only at hacc ⊢
  refine (congrFun (Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix3 0 r δ)).trans ?_
  refine (Payload.pay3_apply _ r δ).trans ?_
  refine (congrFun (Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 r δ)).symm.trans ?_
  rw [hacc, h1, ffn_eq_parts]

end Cert.KernelIdeal.Accum

end
-- ==== Proof.Final.lean ====
/-
  From the output blocks to the result array. The output block of a run is written back once, after the run's last
  step (positions `n ≡ 7 mod 8`), to rows `1024 b … 1024 b + 1023` of expert `e` in the 8 × 4096 × 1024 array; what is
  written is the layer's value for those tokens (`Accum.out_eq`). Every entry (e, τ, δ) lies in the block of exactly the
  run `(e, τ / 1024)`, whose last position is `32 e + 8 (τ / 1024) + 7`, so the blocks cover the array and it ends at
  `resultByExpert`. The host then lays it out as 32768 × 1024.
-/
import proofs.«132760_j86294482911902_1_alg».proof.Proof.Accum
import Idealize.ShloMosaic.Lib.Pipeline.Value
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.Ffn Cert.KernelIdeal.Blocks Cert.KernelIdeal.Accum

variable (m : (ℓ : Loc nD τ sig) → Buf (Elt Ideal) ℓ) (ρ : Dev nD → PrngReg)

/-- The layer's values expert by expert, as contents of the kernel's 8 × 4096 × 1024 output array. -/
abbrev byExpert (c : Dev nD) : Vec Ideal S8x4096x1024 .f32 := resultByExpert (X m c) (WI m c) (WO m c)

/-- What a run's last position writes back is its block of `byExpert`. -/
theorem flushed_eq (c : Dev nD) (t : Fin cfg0.N) (hf : (cfg0.win 3).flush t = true) :
    (dats m 0 c).flushed 3 t = ((cfg0.win 3).blk t).view.read (Elt Ideal) (byExpert m c) := by
  have h7 : t.val % 8 = 7 := (flush0_3 t).mp hf
  have hN : t.val < 256 := lt_of_lt_of_eq t.isLt (show cfg0.N = 256 from N_0)
  obtain ⟨e0, e1, e2⟩ := idx3 t
  show (cfg0.win 3).cut (grid0.coords t) ((dats m 0 c).after 3 t) = _
  rw [after0_3]
  funext j
  rw [View.read_apply]
  show (outsAt0 m c t.val t.isLt).1 j = byExpert m c (((cfg0.win 3).blk t).view.emb j)
  obtain ⟨u, r, δ, rfl⟩ : ∃ (u : Fin 1) (r δ : Fin 1024), j = ix3 u r δ := ⟨j 0, j 1, j 2, eq_ix3 j⟩
  obtain rfl : u = 0 := Subsingleton.elim _ _
  rw [out_eq m c t h7 r δ]
  have he : ((cfg0.win 3).blk t).view.emb (ix3 0 r δ) = ix3 (expertAt t.val) (tokAt t.val r) δ := funext fun a => Fin.ext (by
    match a with
    | ⟨0, _⟩ => show win0_3.index t 0 * 1 + 1 * 0 = t.val / 32 % 8; rw [e0]; omega
    | ⟨1, _⟩ => show win0_3.index t 1 * 1024 + 1 * r.val = t.val / 8 % 4 * 1024 + r.val; rw [e1]; omega
    | ⟨2, _⟩ => show win0_3.index t 2 * 1024 + 1 * δ.val = δ.val; rw [e2]; omega)
  rw [he]
  rfl

/-- Every entry of the output array lies in the block some run writes back. -/
theorem cover (i : S8x4096x1024.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 1024 := (i 2).isLt
  have hlt : (i 0).val * 32 + (i 1).val / 1024 * 8 + 7 < cfg0.N := by rw [show cfg0.N = 256 from N_0]; omega
  obtain ⟨e0, e1, e2⟩ := idx3 ⟨(i 0).val * 32 + (i 1).val / 1024 * 8 + 7, hlt⟩
  refine ⟨⟨(i 0).val * 32 + (i 1).val / 1024 * 8 + 7, hlt⟩, (flush0_3 _).mpr (by
    show ((i 0).val * 32 + (i 1).val / 1024 * 8 + 7) % 8 = 7
    omega), ?_⟩
  show i ∈ ((View.whole main_v1).slice (win0_3.rect ⟨(i 0).val * 32 + (i 1).val / 1024 * 8 + 7, hlt⟩)).set
  rw [View.set_slice_whole, Rect.mem_set_unit]
  intro a
  match a with
  | ⟨0, _⟩ =>
    show win0_3.index ⟨(i 0).val * 32 + (i 1).val / 1024 * 8 + 7, hlt⟩ 0 * 1 ≤ (i 0).val ∧ (i 0).val < win0_3.index ⟨(i 0).val * 32 + (i 1).val / 1024 * 8 + 7, hlt⟩ 0 * 1 + 1
    rw [e0]; show ((i 0).val * 32 + (i 1).val / 1024 * 8 + 7) / 32 * 1 ≤ (i 0).val ∧ (i 0).val < ((i 0).val * 32 + (i 1).val / 1024 * 8 + 7) / 32 * 1 + 1
    omega
  | ⟨1, _⟩ =>
    show win0_3.index ⟨(i 0).val * 32 + (i 1).val / 1024 * 8 + 7, hlt⟩ 1 * 1024 ≤ (i 1).val ∧ (i 1).val < win0_3.index ⟨(i 0).val * 32 + (i 1).val / 1024 * 8 + 7, hlt⟩ 1 * 1024 + 1024
    rw [e1]; show ((i 0).val * 32 + (i 1).val / 1024 * 8 + 7) / 8 % 4 * 1024 ≤ (i 1).val ∧ (i 1).val < ((i 0).val * 32 + (i 1).val / 1024 * 8 + 7) / 8 % 4 * 1024 + 1024
    omega
  | ⟨2, _⟩ =>
    show win0_3.index ⟨(i 0).val * 32 + (i 1).val / 1024 * 8 + 7, hlt⟩ 2 * 1024 ≤ (i 2).val ∧ (i 2).val < win0_3.index ⟨(i 0).val * 32 + (i 1).val / 1024 * 8 + 7, hlt⟩ 2 * 1024 + 1024
    rw [e2]; omega

/-- So the kernel's output array ends at the layer's values, expert by expert. -/
theorem final (c : Dev nD) : (dats m 0 c).arrAt 3 cfg0.N = byExpert m c :=
  (dats m 0 c).arrAt_eq_of_cover 3 (byExpert m c) (flushed_eq m c) (cover)

/-- The result as the program returns it: the same values laid out 32768 × 1024. -/
abbrev result (c : Dev nD) : Buf (Elt Ideal) ((c : Thread nD τ).loc main_v2) :=
  shapeCast S32768x1024 (byExpert m c) shapeCasts_S8x4096x1024_S32768x1024

/-- The host's reshape after the region reads the output array. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = byExpert m c :=
    (Pipeline.withArrays_arr spec0 launch0.win.arr_inj c _ _ 3).trans (final m c)
  show shapeCast S32768x1024 (Pipeline.withArrays (cfgs 0).spec c (V0 m c) (fun w => (dats m 0 c).arrAt w (cfgs 0).N) (Proc.devRef .tc main_v1))
      shapeCasts_S8x4096x1024_S32768x1024 = shapeCast S32768x1024 (byExpert m c) shapeCasts_S8x4096x1024_S32768x1024
  rw [hw]

/-- THE KERNEL'S RUN, read: every weakly fair execution ends with the result array at the layer's values and the three
    arguments as launched. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Final

end
-- ==== Proof.RefSide.lean ====
/-
  The reference computes the layer: its 8 × 4096 × 1024 stage (the second batched product, before the final reshape)
  is `resultByExpert` of the three arguments. Read one operation at a time: the first reshape reads `x` at row
  `4096 e + τ`; the first batched product is the sum over the 1024 features; the rectifier is `max · 0`; the second
  batched product is the sum over the 4096 hidden units.
-/
import proofs.«132760_j86294482911902_1_alg».proof.Proof.Gen.ReferenceIdeal.Read
import proofs.«132760_j86294482911902_1_alg».proof.Proof.Spec
import Idealize.ShloMosaic.Lib.ValueIdx
import Idealize.ShloMosaic.PureOps.Ideal.Laws

noncomputable section

open scoped BigOperators

namespace Cert.ReferenceIdeal.RefSide

open Cert.ReferenceIdeal Cert.ReferenceIdeal.Read Idealize.ShloMosaic Idealize.ShloMosaic.ValueIdx Cert.Ffn

/-- The rectified hidden stage at (e, τ, f). -/
theorem hidden_apply (x0 : (⟨S32768x1024, .f32⟩ : BufTy).Contents (Elt Ideal)) (x1 : (⟨S8x1024x4096, .f32⟩ : BufTy).Contents (Elt Ideal))
    (e : Fin 8) (tok : Fin 4096) (f : Fin 4096) :
    val_main_v2 (F := Ideal) x0 x1 (ix3 e tok f) = hid x0 x1 e tok f := by
  rw [val_main_v2_apply, val_main_v1_apply]
  show max (∑ k : Fin 1024, _) z0 = max (∑ d : Fin 1024, _) z0
  refine congrArg (max · z0) (Finset.sum_congr rfl fun d _ => ?_)
  rw [val_main_v0_apply]
  have e1 : idx_main_v0 (lidx_main_v1 (ix3 e tok f) d) = ix2 (rowOf e tok) d := funext fun a => Fin.ext (by
    have := e.isLt; have := tok.isLt; have := d.isLt
    match a with
    | ⟨0, _⟩ => show ((e.val * 4096 + tok.val) * 1024 + d.val) / 1024 = e.val * 4096 + tok.val; omega
    | ⟨1, _⟩ => show ((e.val * 4096 + tok.val) * 1024 + d.val) % 1024 = d.val; omega)
  have e2 : ridx_main_v1 (ix3 e tok f) d = ix3 e d f := funext fun a => by
    match a with
    | ⟨0, _⟩ => rfl
    | ⟨1, _⟩ => rfl
    | ⟨2, _⟩ => rfl
  rw [e1, e2]

/-- The reference's last stage before the final reshape is the layer, expert by expert. -/
theorem stage_eq (x0 : (⟨S32768x1024, .f32⟩ : BufTy).Contents (Elt Ideal)) (x1 : (⟨S8x1024x4096, .f32⟩ : BufTy).Contents (Elt Ideal))
    (x2 : (⟨S8x4096x1024, .f32⟩ : BufTy).Contents (Elt Ideal)) :
    val_main_v3 (F := Ideal) x0 x1 x2 = resultByExpert x0 x1 x2 := by
  funext i
  obtain ⟨e, tok, δ, rfl⟩ : ∃ (e : Fin 8) (tok : Fin 4096) (δ : Fin 1024), i = ix3 e tok δ := ⟨i 0, i 1, i 2, eq_ix3 i⟩
  rw [val_main_v3_apply]
  show _ = ∑ f : Fin 4096, term x0 x1 x2 e tok δ f
  refine Finset.sum_congr rfl fun f _ => ?_
  have e1 : lidx_main_v3 (ix3 e tok δ) f = ix3 e tok f := funext fun a => by
    match a with
    | ⟨0, _⟩ => rfl
    | ⟨1, _⟩ => rfl
    | ⟨2, _⟩ => rfl
  have e2 : ridx_main_v3 (ix3 e tok δ) f = ix3 e f δ := funext fun a => by
    match a with
    | ⟨0, _⟩ => rfl
    | ⟨1, _⟩ => rfl
    | ⟨2, _⟩ => rfl
  rw [e1, e2, hidden_apply]
  rfl

end Cert.ReferenceIdeal.RefSide

end
-- ==== Proof.lean ====
/-
  The claim: a mixture-of-experts feed-forward layer with all tokens pre-sorted by expert — for each of 8 experts,
  `relu(x_e · wi_e) · wo_e` over that expert's 4096 tokens — computed by a kernel that walks a grid of
  (expert, token block, tile of the hidden axis) and accumulates the second product tile by tile, against the
  reference's two whole batched products.

  Over the extended reals both are the same function of the arguments: a change of float format is the identity, a
  matrix product into the zero block is the plain sum of products, and cutting the sum over the 4096 hidden units into
  eight sums of 512 added one after the other only regroups a finite sum, which needs no finiteness of the inputs
  (Proof/Spec.lean `ffn_eq_parts`). The kernel's side is Proof/Pieces.lean (what one grid step leaves), Proof/Payload.lean
  (its arithmetic at an index), Proof/Blocks.lean (where each block sits in its array), Proof/Accum.lean (the
  accumulator along a run, by induction on the grid position) and Proof/Final.lean (write-back, cover, the final
  reshape, the run). The reference's side is Proof/RefSide.lean. Both programs end with the same reshape of the
  8 × 4096 × 1024 values to 32768 × 1024.

  The three frames are the generated ones (the reference's is its run with the result dropped); the ideal pass rewrote
  nothing, so `preserves` is trivial.
-/
import proofs.«132760_j86294482911902_1_alg».proof.Defs
import proofs.«132760_j86294482911902_1_alg».proof.Proof.Gen.Kernel
import proofs.«132760_j86294482911902_1_alg».proof.Proof.Gen.Kernel.Skeleton
import proofs.«132760_j86294482911902_1_alg».proof.Proof.Gen.Kernel.Launch
import proofs.«132760_j86294482911902_1_alg».proof.Proof.Gen.Kernel.Points
import proofs.«132760_j86294482911902_1_alg».proof.Proof.Gen.Kernel.Frame
import proofs.«132760_j86294482911902_1_alg».proof.Proof.Gen.KernelIdeal
import proofs.«132760_j86294482911902_1_alg».proof.Proof.Gen.KernelIdeal.Skeleton
import proofs.«132760_j86294482911902_1_alg».proof.Proof.Gen.KernelIdeal.Launch
import proofs.«132760_j86294482911902_1_alg».proof.Proof.Gen.KernelIdeal.Points
import proofs.«132760_j86294482911902_1_alg».proof.Proof.Gen.KernelIdeal.Frame
import proofs.«132760_j86294482911902_1_alg».proof.Proof.Gen.ReferenceIdeal
import proofs.«132760_j86294482911902_1_alg».proof.Proof.Gen.ReferenceIdeal.Run
import proofs.«132760_j86294482911902_1_alg».proof.Proof.Gen.ReferenceIdeal.Read
import proofs.«132760_j86294482911902_1_alg».proof.Proof.Gen.Pre_finite_inputs
import proofs.«132760_j86294482911902_1_alg».proof.Proof.Final
import proofs.«132760_j86294482911902_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the same reshape of the layer's values expert by expert: the kernel's output array is
    `resultByExpert` of its arguments (`Final.run`), the reference's last stage before its reshape is
    `resultByExpert` of arguments that agree (`RefSide.stage_eq`). -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq]
  unfold Cert.ReferenceIdeal.Read.val_main_v4
  rw [Cert.ReferenceIdeal.RefSide.stage_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
